-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KernelBlock.lean ====
/-
  What one grid step of a layer computes, read at an entry of its 400 × 128 output block.

  The body multiplies the step's 400 × 10000 block of adjacency rows by the whole 10000 × 128 feature matrix, the
  400 × 128 result by the 128 × 128 weights, adds the bias row to every row and, in the first layer only, takes the
  positive part. Each product is a sum over its contracted axis, so entry (r, q) of the block is

      Σ_k (Σ_j a(r, j) · x(j, k)) · w(k, q) + b(0, q),

  in the first layer under `max · 0`.
-/
import proofs.«165781_g13374528160099_cont_week2b_138_2_alg».proof.Proof.Gen.KernelIdeal.Skeleton
import proofs.«165781_g13374528160099_cont_week2b_138_2_alg».proof.Proof.LibPlainDot
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- The bias row, cast to its own shape and spread over the 400 rows of the block, reads entry (0, q) at (r, q). -/
theorem bias_row (x3 : FVec Ideal S1x128 .f32) (r : Fin 400) (q : Fin 128) :
    broadcastTo S400x128 (shapeCast S1x128 x3 shapeCasts_S1x128_S1x128) broadcasts_S1x128_S400x128 (ix2 r q)
      = x3 (ix2 (0 : Fin 1) q) := by
  rw [shapeCast_self]
  exact broadcastTo_apply x3 broadcasts_S1x128_S400x128 (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

/-- The two products of a step, the second fed by the first, at entry (r, q). -/
theorem products (x0 : FVec Ideal S400x10000 .f32) (x1 : FVec Ideal S10000x128 .f32) (x2 : FVec Ideal S128x128 .f32)
    (r : Fin 400) (q : Fin 128) :
    matmul (F := Ideal) (φ₁ := .f32) (φ₂ := .f32) dot_S400x128_S128x128_S400x128_1_0_0_1_n_n none
        (matmul (F := Ideal) (φ₁ := .f32) (φ₂ := .f32) dot_S400x10000_S10000x128_S400x128_1_0_0_1_n_n none x0 x1 (constant (F := Ideal) S400x128 .f32 0x00000000#32))
        x2 (constant (F := Ideal) S400x128 .f32 0x00000000#32) (ix2 r q)
      = ∑ k : Fin 128, (∑ j : Fin 10000, x0 (ix2 r j) * x1 (ix2 j k)) * x2 (ix2 k q) := by
  refine (LibPlainDot.matmul_zero_apply dot_S400x128_S128x128_S400x128_1_0_0_1_n_n rfl rfl rfl rfl rfl rfl none _ x2 r q).trans ?_
  refine Finset.sum_congr rfl fun k _ => congrArg (· * x2 (ix2 k q)) ?_
  exact LibPlainDot.matmul_zero_apply dot_S400x10000_S10000x128_S400x128_1_0_0_1_n_n rfl rfl rfl rfl rfl rfl none x0 x1 r k

/-- The first layer's stored value at entry (r, q) of the block. -/
theorem hidden_apply (x0 : Vec Ideal S400x10000 .f32) (x1 : Vec Ideal S10000x128 .f32) (x2 : Vec Ideal S128x128 .f32)
    (x3 : Vec Ideal S1x128 .f32) (r : Fin 400) (q : Fin 128) :
    k0_pay1 (F := Ideal) x0 x1 x2 x3 (ix2 r q)
      = max ((∑ k : Fin 128, (∑ j : Fin 10000, x0 (ix2 r j) * x1 (ix2 j k)) * x2 (ix2 k q)) + x3 (ix2 (0 : Fin 1) q)) 0 := by
  unfold k0_pay1
  show max (matmul (F := Ideal) (φ₁ := .f32) (φ₂ := .f32) dot_S400x128_S128x128_S400x128_1_0_0_1_n_n none
        (matmul (F := Ideal) (φ₁ := .f32) (φ₂ := .f32) dot_S400x10000_S10000x128_S400x128_1_0_0_1_n_n none x0 x1 (constant (F := Ideal) S400x128 .f32 0x00000000#32))
        x2 (constant (F := Ideal) S400x128 .f32 0x00000000#32) (ix2 r q)
      + broadcastTo S400x128 (shapeCast S1x128 x3 shapeCasts_S1x128_S1x128) broadcasts_S1x128_S400x128 (ix2 r q))
    (Ideal.ofBits .f32 0x00000000#32) = _
  rw [products, bias_row, Ideal.ofBits_zero_f32]

/-- The second layer's stored value at entry (r, q) of the block. -/
theorem out_apply (x0 : Vec Ideal S400x10000 .f32) (x1 : Vec Ideal S10000x128 .f32) (x2 : Vec Ideal S128x128 .f32)
    (x3 : Vec Ideal S1x128 .f32) (r : Fin 400) (q : Fin 128) :
    k1_pay1 (F := Ideal) x0 x1 x2 x3 (ix2 r q)
      = (∑ k : Fin 128, (∑ j : Fin 10000, x0 (ix2 r j) * x1 (ix2 j k)) * x2 (ix2 k q)) + x3 (ix2 (0 : Fin 1) q) := by
  unfold k1_pay1
  show matmul (F := Ideal) (φ₁ := .f32) (φ₂ := .f32) dot_S400x128_S128x128_S400x128_1_0_0_1_n_n none
        (matmul (F := Ideal) (φ₁ := .f32) (φ₂ := .f32) dot_S400x10000_S10000x128_S400x128_1_0_0_1_n_n none x0 (shapeCast S10000x128 x1 shapeCasts_S10000x128_S10000x128) (constant (F := Ideal) S400x128 .f32 0x00000000#32))
        x2 (constant (F := Ideal) S400x128 .f32 0x00000000#32) (ix2 r q)
      + broadcastTo S400x128 (shapeCast S1x128 x3 shapeCasts_S1x128_S1x128) broadcasts_S1x128_S400x128 (ix2 r q) = _
  rw [shapeCast_self, products, bias_row]

end Cert.KernelIdeal.Block

end
-- ==== Proof.LibTripleSum.lean ====
/-
  A triple product of matrices with real entries, bracketed either way.

  For a row `a` indexed by `J`, a matrix `f` indexed by `J × K` and a column `w` indexed by `K`,

      Σ_k (Σ_j a(j) · f(j, k)) · w(k)  =  Σ_j a(j) · (Σ_k f(j, k) · w(k)),

  both being the double sum of `a(j) · f(j, k) · w(k)`. Over the reals this is distributivity and the exchange of two
  finite sums. On the extended reals distributivity fails at the infinities, so the law is stated for entries that are
  coerced reals: every product and every finite sum of coerced reals is the coerced real product or sum, and the real
  law applies underneath the coercion. Any finite index types.
-/
import Idealize.ShloMosaic.PureOps.Ideal

noncomputable section

namespace Cert.LibTripleSum

open scoped BigOperators

/-- A sum over a finite type of coerced reals is the coerced sum. -/
theorem sum_coe {ι : Type} [Fintype ι] (f : ι → ℝ) : ∑ i, ((f i : ℝ) : EReal) = ((∑ i, f i : ℝ) : EReal) := by
  classical
  refine Finset.induction_on (Finset.univ : Finset ι) (by simp) ?_
  intro i s hi ih
  rw [Finset.sum_insert hi, Finset.sum_insert hi, ih, EReal.coe_add]

/-- The triple product over the reals, bracketed either way. -/
theorem assoc_real {J K : Type} [Fintype J] [Fintype K] (a : J → ℝ) (f : J → K → ℝ) (w : K → ℝ) :
    ∑ k, (∑ j, a j * f j k) * w k = ∑ j, a j * ∑ k, f j k * w k := by
  simp only [Finset.sum_mul, Finset.mul_sum]
  rw [Finset.sum_comm]
  exact Finset.sum_congr rfl fun j _ => Finset.sum_congr rfl fun k _ => mul_assoc _ _ _

/-- The same for extended reals that are coerced reals. -/
theorem assoc_ereal {J K : Type} [Fintype J] [Fintype K] (a : J → EReal) (f : J → K → EReal) (w : K → EReal)
    (ha : ∀ j, ∃ r : ℝ, a j = (r : EReal)) (hf : ∀ j k, ∃ r : ℝ, f j k = (r : EReal)) (hw : ∀ k, ∃ r : ℝ, w k = (r : EReal)) :
    ∑ k, (∑ j, a j * f j k) * w k = ∑ j, a j * ∑ k, f j k * w k := by
  choose a' ha using ha
  choose f' hf using hf
  choose w' hw using hw
  simp only [ha, hf, hw, ← EReal.coe_mul, sum_coe]
  rw [assoc_real]

end Cert.LibTripleSum

end
-- ==== Proof.LayerMath.lean ====
/-
  One dense graph-convolution layer, index by index, in its two bracketings.

  For an adjacency matrix `A` (10000 × 10000), features `X` (10000 × 128), weights `W` (128 × 128) and a bias row
  `b` (128 entries), the layer's entry at row `p` and column `q` is

      aggregate first :  Σ_k (Σ_j A(p, j) · X(j, k)) · W(k, q) + b(q)
      project first   :  Σ_j A(p, j) · (Σ_k X(j, k) · W(k, q)) + b(q).

  Both are the double sum of `A(p, j) · X(j, k) · W(k, q)` plus the bias: associativity of the matrix product. On the
  extended reals that law needs distributivity, which fails at the infinities, so it is proved for matrices whose
  entries are coerced reals; the bias may be anything. A layer of coerced reals is again made of coerced reals, and so
  is its positive part, which is what lets the law be used a second time on the hidden layer.
-/
import Idealize.ShloMosaic.PureOps.Ideal
import Idealize.ShloMosaic.Lib.ValueIdx
import proofs.«165781_g13374528160099_cont_week2b_138_2_alg».proof.Proof.LibTripleSum

noncomputable section

namespace Cert.Gcn

open Idealize.ShloMosaic Idealize.ShloMosaic.ValueIdx
open scoped BigOperators

/-- Adjacency, feature and weight matrices, by shape. -/
abbrev SNN : Shape := ⟨2, ![10000, 10000]⟩
abbrev SND : Shape := ⟨2, ![10000, 128]⟩
abbrev SDD : Shape := ⟨2, ![128, 128]⟩

/-- Every value of the family is a coerced real. -/
def IsReal {ι : Type} (f : ι → EReal) : Prop := ∀ i, ∃ r : ℝ, f i = (r : EReal)

/-- The layer's entry, neighbours aggregated first and the result projected. -/
def aggProj (A : SNN.Idx → EReal) (X : SND.Idx → EReal) (W : SDD.Idx → EReal) (b : Fin 128 → EReal)
    (p : Fin 10000) (q : Fin 128) : EReal :=
  (∑ k : Fin 128, (∑ j : Fin 10000, A (ix2 p j) * X (ix2 j k)) * W (ix2 k q)) + b q

/-- The layer's entry, features projected first and the result aggregated. -/
def projAgg (A : SNN.Idx → EReal) (X : SND.Idx → EReal) (W : SDD.Idx → EReal) (b : Fin 128 → EReal)
    (p : Fin 10000) (q : Fin 128) : EReal :=
  (∑ j : Fin 10000, A (ix2 p j) * ∑ k : Fin 128, X (ix2 j k) * W (ix2 k q)) + b q

/-- For matrices of coerced reals the two bracketings agree, whatever the bias. -/
theorem aggProj_eq_projAgg {A : SNN.Idx → EReal} {X : SND.Idx → EReal} {W : SDD.Idx → EReal}
    (hA : IsReal A) (hX : IsReal X) (hW : IsReal W) (b : Fin 128 → EReal) (p : Fin 10000) (q : Fin 128) :
    aggProj A X W b p q = projAgg A X W b p q := by
  unfold aggProj projAgg
  exact congrArg (· + b q) (LibTripleSum.assoc_ereal (fun j => A (ix2 p j)) (fun j k => X (ix2 j k)) (fun k => W (ix2 k q))
    (fun j => hA _) (fun j k => hX _) (fun k => hW _))

/-- A layer of coerced reals has coerced real entries. -/
theorem projAgg_real {A : SNN.Idx → EReal} {X : SND.Idx → EReal} {W : SDD.Idx → EReal} {b : Fin 128 → EReal}
    (hA : IsReal A) (hX : IsReal X) (hW : IsReal W) (hb : IsReal b) (p : Fin 10000) (q : Fin 128) :
    ∃ r : ℝ, projAgg A X W b p q = (r : EReal) := by
  choose a ha using hA
  choose x hx using hX
  choose w hw using hW
  choose b' hb using hb
  refine ⟨(∑ j : Fin 10000, a (ix2 p j) * ∑ k : Fin 128, x (ix2 j k) * w (ix2 k q)) + b' q, ?_⟩
  unfold projAgg
  simp only [ha, hx, hw, hb, ← EReal.coe_mul, LibTripleSum.sum_coe, ← EReal.coe_add]

/-- The positive part of a coerced real is a coerced real. -/
theorem max_zero_real {x : EReal} (h : ∃ r : ℝ, x = (r : EReal)) : ∃ r : ℝ, max x 0 = (r : EReal) := by
  obtain ⟨r, rfl⟩ := h
  rcases le_total ((r : ℝ) : EReal) 0 with h0 | h0
  · exact ⟨0, by rw [max_eq_right h0]; rfl⟩
  · exact ⟨r, max_eq_left h0⟩

/-- The hidden layer as the kernel computes it: the positive part of the aggregate-first entry. -/
def hiddenAgg (A : SNN.Idx → EReal) (X : SND.Idx → EReal) (W : SDD.Idx → EReal) (b : Fin 128 → EReal) : SND.Idx → EReal :=
  fun i => max (aggProj A X W b (i 0) (i 1)) 0
/-- The output layer as the kernel computes it. -/
def outAgg (A : SNN.Idx → EReal) (H : SND.Idx → EReal) (W : SDD.Idx → EReal) (b : Fin 128 → EReal) : SND.Idx → EReal :=
  fun i => aggProj A H W b (i 0) (i 1)
/-- The hidden layer as the reference computes it. -/
def hiddenProj (A : SNN.Idx → EReal) (X : SND.Idx → EReal) (W : SDD.Idx → EReal) (b : Fin 128 → EReal) : SND.Idx → EReal :=
  fun i => max (projAgg A X W b (i 0) (i 1)) 0
/-- The output layer as the reference computes it. -/
def outProj (A : SNN.Idx → EReal) (H : SND.Idx → EReal) (W : SDD.Idx → EReal) (b : Fin 128 → EReal) : SND.Idx → EReal :=
  fun i => projAgg A H W b (i 0) (i 1)

/-- The two-layer network in the two bracketings: equal when the adjacency, the features, the first layer's weights
    and bias and the second layer's weights are coerced reals (the hidden layer is then made of coerced reals too). -/
theorem two_layers {A : SNN.Idx → EReal} {X : SND.Idx → EReal} {W1 W2 : SDD.Idx → EReal} {b1 : Fin 128 → EReal}
    (hA : IsReal A) (hX : IsReal X) (hW1 : IsReal W1) (hb1 : IsReal b1) (hW2 : IsReal W2) (b2 : Fin 128 → EReal) :
    outAgg A (hiddenAgg A X W1 b1) W2 b2 = outProj A (hiddenProj A X W1 b1) W2 b2 := by
  have hH : hiddenAgg A X W1 b1 = hiddenProj A X W1 b1 :=
    funext fun i => congrArg (max · 0) (aggProj_eq_projAgg hA hX hW1 b1 (i 0) (i 1))
  have hreal : IsReal (hiddenProj A X W1 b1) := fun i => max_zero_real (projAgg_real hA hX hW1 hb1 (i 0) (i 1))
  rw [hH]
  exact funext fun i => aggProj_eq_projAgg hA hreal hW2 b2 (i 0) (i 1)

end Cert.Gcn

end
-- ==== Proof.RegionValue.lean ====
/-
  What each of the two kernel regions leaves in its output array, as one function of the arrays it finds.

  A region walks 25 grid points. At point `t` it is handed rows `400 t … 400 t + 399` of the adjacency matrix and the
  whole feature matrix, weight matrix and bias row, and writes back a 400 × 128 block at rows `400 t … 400 t + 399` of its
  output. That block is the layer's aggregate-first entry at those rows (under the positive part in the first region),
  and the 25 blocks tile the 10000 rows, so the output array ends as the whole layer. Stated at any contents `V` of the
  buffers when the region is entered.
-/
import proofs.«165781_g13374528160099_cont_week2b_138_2_alg».proof.Proof.Gen.KernelIdeal.Frame
import proofs.«165781_g13374528160099_cont_week2b_138_2_alg».proof.Proof.KernelBlock
import proofs.«165781_g13374528160099_cont_week2b_138_2_alg».proof.Proof.LayerMath
import Idealize.ShloMosaic.Lib.Pipeline.Value
import Idealize.ShloMosaic.Lib.Tactic

set_option maxRecDepth 16384

noncomputable section

namespace Cert.KernelIdeal.RegionValue

open Cert.KernelIdeal Cert.KernelIdeal.Gen Cert.Gcn
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0: the hidden layer, `max (A·X·W1 + b1) 0` -/

/-- The printed index maps of region 0, decided over its 25 grid points: the adjacency window and the output window
    are at block row `t`, the three resident windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency window's block at point `t` is rows `400 t … 400 t + 399` of the adjacency matrix. -/
theorem adjBlock0_apply (c : Dev nD) (t : Fin cfg0.N) (x : S400x10000.Idx) (k : S10000x10000.Idx)
    (hk0 : (k 0).val = 400 * t.val + (x 0).val) (hk1 : (k 1).val = (x 1).val) :
    (iblk0 V c 0 t : Vec Ideal S400x10000 .f32) x = (V c main_arg0 : S10000x10000.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- The feature window's block is the whole feature matrix, at every point. -/
theorem featBlock0_apply (c : Dev nD) (t : Fin cfg0.N) (x : S10000x128.Idx) :
    (iblk0 V c 1 t : Vec Ideal S10000x128 .f32) x = (V c main_arg1 : S10000x128.Idx → EReal) x := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The weight window's block is the whole weight matrix, at every point. -/
theorem wtBlock0_apply (c : Dev nD) (t : Fin cfg0.N) (x : S128x128.Idx) :
    (iblk0 V c 2 t : Vec Ideal S128x128 .f32) x = (V c main_arg2 : S128x128.Idx → EReal) x := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias window's block is the whole bias row, at every point. -/
theorem biasBlock0_apply (c : Dev nD) (t : Fin cfg0.N) (x : S1x128.Idx) :
    (iblk0 V c 3 t : Vec Ideal S1x128 .f32) x = (V c main_v0 : S1x128.Idx → EReal) x := by
  obtain ⟨-, -, -, -, -, -, e0, e1, -⟩ := idx_facts0 t
  unfold iblk0
  rw [View.read_apply]
  show V c main_v0 _ = V c main_v0 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The layer region 0 computes, as one function of the arrays the region finds. -/
abbrev layer0 (c : Dev nD) : SND.Idx → EReal :=
  hiddenAgg (V c main_arg0) (V c main_arg1) (V c main_arg2) (fun q => (V c main_v0 : S1x128.Idx → EReal) (ix2 (0 : Fin 1) q))

/-- What point `t` writes back is block `t` (rows `400 t … 400 t + 399`) of the layer. -/
theorem flushed0_eq (c : Dev nD) (t : Fin cfg0.N) :
    (dat0 V c).flushed 4 t = ((cfg0.win 4).blk t).view.read (Elt Ideal) (layer0 V c) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz,
    View.ld_unit_zero (S := S128x128) hz, View.ld_unit_zero (S := S1x128) hz]
  funext y
  obtain ⟨r, q, rfl⟩ : ∃ (r : Fin 400) (q : Fin 128), y = ix2 r q := ⟨y 0, y 1, eq_ix2 y⟩
  obtain ⟨-, -, -, -, -, -, -, -, e0, e1⟩ := idx_facts0 t
  rw [View.read_apply]
  refine (Block.hidden_apply (iblk0 V c 0 t) (iblk0 V c 1 t) (iblk0 V c 2 t) (iblk0 V c 3 t) r q).trans ?_
  have hrow : ((((cfg0.win 4).blk t).view.emb (ix2 r q)) 0).val = 400 * t.val + r.val := by
    show win0_4.index t 0 * 400 + 1 * r.val = _
    rw [e0]; omega
  have hcol : (((cfg0.win 4).blk t).view.emb (ix2 r q)) 1 = q := Fin.ext (by
    show win0_4.index t 1 * 128 + 1 * q.val = q.val
    rw [e1]; omega)
  show _ = max (aggProj _ _ _ _ ((((cfg0.win 4).blk t).view.emb (ix2 r q)) 0) ((((cfg0.win 4).blk t).view.emb (ix2 r q)) 1)) 0
  rw [hcol]
  unfold aggProj
  refine congrArg (max · 0) (congrArg₂ (· + ·) (Finset.sum_congr rfl fun k _ => congrArg₂ (· * ·)
    (Finset.sum_congr rfl fun j _ => congrArg₂ (· * ·) ?_ ?_) ?_) ?_)
  · exact adjBlock0_apply V c t (ix2 r j) (ix2 _ j) hrow rfl
  · exact featBlock0_apply V c t (ix2 j k)
  · exact wtBlock0_apply V c t (ix2 k q)
  · exact biasBlock0_apply V c t (ix2 (0 : Fin 1) q)

/-- An index of the output array is in point `t`'s block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v2).slice (win0_4.rect t)).set ↔ _
  rw [View.set_slice_whole, Rect.mem_set_unit]
  exact Iff.rfl

/-- Every row of the output lies in some point's block: row `p` in that of point `p / 400`. -/
theorem cover0 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, e0, e1⟩ := idx_facts0 t
  refine ⟨t, flush0_4 t, ?_⟩
  rw [mem_blk0]
  intro a
  match a with
  | ⟨0, _⟩ => show win0_4.index t 0 * 400 ≤ (i 0).val ∧ (i 0).val < win0_4.index t 0 * 400 + 400; rw [e0, ht]; omega
  | ⟨1, _⟩ => show win0_4.index t 1 * 128 ≤ (i 1).val ∧ (i 1).val < win0_4.index t 1 * 128 + 128; rw [e1]; omega

/-- The output array after region 0 is the layer of the arrays the region found. -/
theorem final0 (c : Dev nD) : (dat0 V c).arrAt 4 cfg0.N = layer0 V c :=
  (dat0 V c).arrAt_eq_of_cover 4 (layer0 V c) (fun t _ => flushed0_eq V c t) cover0

/-! ## Region 1: the output layer, `A·H·W2 + b2` -/

/-- The printed index maps of region 1, decided over its 25 grid points: the adjacency window and the output window
    are at block row `t`, the three resident windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency window's block at point `t` is rows `400 t … 400 t + 399` of the adjacency matrix. -/
theorem adjBlock1_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg0 : S10000x10000.Idx → EReal) k := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The feature window's block is the whole feature matrix, at every point. -/
theorem featBlock1_apply (c : Dev nD) (t : Fin cfg1.N) (x : S10000x128.Idx) :
    (iblk1 V c 1 t : Vec Ideal S10000x128 .f32) x = (V c main_v2 : S10000x128.Idx → EReal) x := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t 0 * 10000 + 1 * (x 0).val = (x 0).val; rw [e0]; omega
  | ⟨1, _⟩ => show win1_1.index t 1 * 128 + 1 * (x 1).val = (x 1).val; rw [e1]; omega

/-- The weight window's block is the whole weight matrix, at every point. -/
theorem wtBlock1_apply (c : Dev nD) (t : Fin cfg1.N) (x : S128x128.Idx) :
    (iblk1 V c 2 t : Vec Ideal S128x128 .f32) x = (V c main_arg4 : S128x128.Idx → EReal) x := by
  obtain ⟨-, -, -, -, e0, e1, -⟩ := idx_facts1 t
  unfold iblk1
  rw [View.read_apply]
  show V c main_arg4 _ = V c main_arg4 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias window's block is the whole bias row, at every point. -/
theorem biasBlock1_apply (c : Dev nD) (t : Fin cfg1.N) (x : S1x128.Idx) :
    (iblk1 V c 3 t : Vec Ideal S1x128 .f32) x = (V c main_v1 : S1x128.Idx → EReal) x := by
  obtain ⟨-, -, -, -, -, -, e0, e1, -⟩ := idx_facts1 t
  unfold iblk1
  rw [View.read_apply]
  show V c main_v1 _ = V c main_v1 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The layer region 1 computes, as one function of the arrays the region finds. -/
abbrev layer1 (c : Dev nD) : SND.Idx → EReal :=
  outAgg (V c main_arg0) (V c main_v2) (V c main_arg4) (fun q => (V c main_v1 : S1x128.Idx → EReal) (ix2 (0 : Fin 1) q))

/-- What point `t` writes back is block `t` (rows `400 t … 400 t + 399`) of the layer. -/
theorem flushed1_eq (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S128x128) hz, View.ld_unit_zero (S := S1x128) hz]
  funext y
  obtain ⟨r, q, rfl⟩ : ∃ (r : Fin 400) (q : Fin 128), y = ix2 r q := ⟨y 0, y 1, eq_ix2 y⟩
  obtain ⟨-, -, -, -, -, -, -, -, e0, e1⟩ := idx_facts1 t
  rw [View.read_apply]
  refine (Block.out_apply (iblk1 V c 0 t) (iblk1 V c 1 t) (iblk1 V c 2 t) (iblk1 V c 3 t) r q).trans ?_
  have hrow : ((((cfg1.win 4).blk t).view.emb (ix2 r q)) 0).val = 400 * t.val + r.val := by
    show win1_4.index t 0 * 400 + 1 * r.val = _
    rw [e0]; omega
  have hcol : (((cfg1.win 4).blk t).view.emb (ix2 r q)) 1 = q := Fin.ext (by
    show win1_4.index t 1 * 128 + 1 * q.val = q.val
    rw [e1]; omega)
  unfold layer1 outAgg
  rw [hcol]
  unfold aggProj
  refine (congrArg₂ (· + ·) (Finset.sum_congr rfl fun k _ => congrArg₂ (· * ·)
    (Finset.sum_congr rfl fun j _ => congrArg₂ (· * ·) ?_ ?_) ?_) ?_)
  · exact adjBlock1_apply V c t (ix2 r j) (ix2 _ j) hrow rfl
  · exact featBlock1_apply V c t (ix2 j k)
  · exact wtBlock1_apply V c t (ix2 k q)
  · exact biasBlock1_apply V c t (ix2 (0 : Fin 1) q)

/-- An index of the output array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- Every row of the output lies in some point's block: row `p` in that of point `p / 400`. -/
theorem cover1 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, e0, e1⟩ := idx_facts1 t
  refine ⟨t, flush1_4 t, ?_⟩
  rw [mem_blk1]
  intro a
  match a with
  | ⟨0, _⟩ => show win1_4.index t 0 * 400 ≤ (i 0).val ∧ (i 0).val < win1_4.index t 0 * 400 + 400; rw [e0, ht]; omega
  | ⟨1, _⟩ => show win1_4.index t 1 * 128 ≤ (i 1).val ∧ (i 1).val < win1_4.index t 1 * 128 + 128; rw [e1]; omega

/-- The output array after region 1 is the layer of the arrays the region found. -/
theorem final1 (c : Dev nD) : (dat1 V c).arrAt 4 cfg1.N = layer1 V c :=
  (dat1 V c).arrAt_eq_of_cover 4 (layer1 V c) (fun t _ => flushed1_eq V c t) cover1

end Cert.KernelIdeal.RegionValue

end
-- ==== Proof.KernelValue.lean ====
/-
  The idealized kernel's result array as a function of the launch memory.

  Before the first region the host reshapes the two bias vectors into rows and touches nothing else, so the first
  region finds the adjacency, the features and the first weights as launched and the first bias as a row; it leaves
  the hidden layer in its output array. The second region finds the adjacency (which the first region only read), that
  hidden layer, the second weights and the second bias row (both untouched by the first region), and leaves the output
  layer in the result array. Composed: the result is the aggregate-first output layer of the aggregate-first hidden
  layer of the launch memory's six arrays.
-/
import proofs.«165781_g13374528160099_cont_week2b_138_2_alg».proof.Proof.RegionValue
import Idealize.ShloMosaic.Lib.StableHlo.Run

set_option maxRecDepth 16384

noncomputable section

namespace Cert.KernelIdeal.ResultValue

open Cert.KernelIdeal Cert.KernelIdeal.Gen Cert.KernelIdeal.RegionValue Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What the first region is entered at -/

theorem entry0_arg0 (c : Dev nD) : V1 m ρ c main_arg0 = m ((c : Thread nD τ).loc main_arg0) := by
  show StableHlo.after hostOps0 (W0 m ρ c) (Proc.devRef .tc main_arg0) = _
  after_results
theorem entry0_arg1 (c : Dev nD) : V1 m ρ c main_arg1 = m ((c : Thread nD τ).loc main_arg1) := by
  show StableHlo.after hostOps0 (W0 m ρ c) (Proc.devRef .tc main_arg1) = _
  after_results
theorem entry0_arg2 (c : Dev nD) : V1 m ρ c main_arg2 = m ((c : Thread nD τ).loc main_arg2) := by
  show StableHlo.after hostOps0 (W0 m ρ c) (Proc.devRef .tc main_arg2) = _
  after_results
theorem entry0_arg4 (c : Dev nD) : V1 m ρ c main_arg4 = m ((c : Thread nD τ).loc main_arg4) := by
  show StableHlo.after hostOps0 (W0 m ρ c) (Proc.devRef .tc main_arg4) = _
  after_results

/-- A 128-vector reshaped to a 1 × 128 row reads entry `q` at (0, q). -/
theorem row_of_vector (x : S128.Idx → EReal) (q : Fin 128) :
    shapeCast S1x128 x shapeCasts_S128_S1x128 (ix2 (0 : Fin 1) q) = x (ix1 q) :=
  shapeCast_apply x shapeCasts_S128_S1x128 (ix2 (0 : Fin 1) q) (ix1 q) (by
    rw [Shape.rowMajor_val_one, Shape.rowMajor_val_two]
    show q.val = 0 * 128 + q.val
    omega)

/-- The first bias row, as the host's reshape leaves it. -/
theorem entry0_bias1 (c : Dev nD) (q : Fin 128) :
    (V1 m ρ c main_v0 : S1x128.Idx → EReal) (ix2 (0 : Fin 1) q) = (m ((c : Thread nD τ).loc main_arg3) : S128.Idx → EReal) (ix1 q) := by
  show (StableHlo.after hostOps0 (W0 m ρ c) (Proc.devRef .tc main_v0) : S1x128.Idx → EReal) _ = _
  after_results
  exact row_of_vector (m ((c : Thread nD τ).loc main_arg3)) q
/-- The second bias row, as the host's reshape leaves it. -/
theorem entry0_bias2 (c : Dev nD) (q : Fin 128) :
    (V1 m ρ c main_v1 : S1x128.Idx → EReal) (ix2 (0 : Fin 1) q) = (m ((c : Thread nD τ).loc main_arg5) : S128.Idx → EReal) (ix1 q) := by
  show (StableHlo.after hostOps0 (W0 m ρ c) (Proc.devRef .tc main_v1) : S1x128.Idx → EReal) _ = _
  after_results
  exact row_of_vector (m ((c : Thread nD τ).loc main_arg5)) q

/-! ## What the second region is entered at -/

/-- The first region leaves the hidden layer of the launch memory in its output array. -/
theorem hidden_eq (c : Dev nD) :
    (V2 m ρ c main_v2 : SND.Idx → EReal) = hiddenAgg (m ((c : Thread nD τ).loc main_arg0)) (m ((c : Thread nD τ).loc main_arg1))
      (m ((c : Thread nD τ).loc main_arg2)) (fun q => (m ((c : Thread nD τ).loc main_arg3) : S128.Idx → EReal) (ix1 q)) :=
  ((W2_arr m ρ c 4).trans (final0 (V1 m ρ) c)).trans
    (congr (congr (congr (congrArg hiddenAgg (entry0_arg0 m ρ c)) (entry0_arg1 m ρ c)) (entry0_arg2 m ρ c))
      (funext fun q => entry0_bias1 m ρ c q))

/-- The adjacency matrix is a window the first region only reads. -/
theorem entry1_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (entry0_arg0 m ρ c)
/-- The second weights are no window of the first region. -/
theorem entry1_arg4 (c : Dev nD) : V2 m ρ c main_arg4 = m ((c : Thread nD τ).loc main_arg4) :=
  (W2_of_ne m ρ c main_arg4 (by decide)).trans (entry0_arg4 m ρ c)
/-- Nor is the second bias row. -/
theorem entry1_bias2 (c : Dev nD) (q : Fin 128) :
    (V2 m ρ c main_v1 : S1x128.Idx → EReal) (ix2 (0 : Fin 1) q) = (m ((c : Thread nD τ).loc main_arg5) : S128.Idx → EReal) (ix1 q) :=
  (congrFun (W2_of_ne m ρ c main_v1 (by decide)) (ix2 (0 : Fin 1) q)).trans (entry0_bias2 m ρ c q)

/-! ## The result -/

/-- The two-layer network of the launch memory, neighbours aggregated first in both layers. -/
abbrev network (c : Dev nD) : SND.Idx → EReal :=
  outAgg (m ((c : Thread nD τ).loc main_arg0))
    (hiddenAgg (m ((c : Thread nD τ).loc main_arg0)) (m ((c : Thread nD τ).loc main_arg1)) (m ((c : Thread nD τ).loc main_arg2))
      (fun q => (m ((c : Thread nD τ).loc main_arg3) : S128.Idx → EReal) (ix1 q)))
    (m ((c : Thread nD τ).loc main_arg4)) (fun q => (m ((c : Thread nD τ).loc main_arg5) : S128.Idx → EReal) (ix1 q))

/-- What the second region leaves in the result array. -/
theorem result_eq (c : Dev nD) : (V3 m ρ c main_v3 : SND.Idx → EReal) = network m c := by
  have key : outAgg (V2 m ρ c main_arg0) (V2 m ρ c main_v2) (V2 m ρ c main_arg4)
        (fun q => (V2 m ρ c main_v1 : S1x128.Idx → EReal) (ix2 (0 : Fin 1) q))
      = outAgg (m ((c : Thread nD τ).loc main_arg0))
          (hiddenAgg (m ((c : Thread nD τ).loc main_arg0)) (m ((c : Thread nD τ).loc main_arg1)) (m ((c : Thread nD τ).loc main_arg2))
            (fun q => (m ((c : Thread nD τ).loc main_arg3) : S128.Idx → EReal) (ix1 q)))
          (m ((c : Thread nD τ).loc main_arg4)) (fun q => (m ((c : Thread nD τ).loc main_arg5) : S128.Idx → EReal) (ix1 q)) :=
    congr (congr (congr (congrArg outAgg (entry1_arg0 m ρ c)) (hidden_eq m ρ c)) (entry1_arg4 m ρ c))
      (funext fun q => entry1_bias2 m ρ c q)
  exact ((W3_arr m ρ c 4).trans (final1 (V2 m ρ) c)).trans key

end Cert.KernelIdeal.ResultValue

end
-- ==== Proof.RefLayers.lean ====
/-
  The reference program, read as two layers.

  Its thirteen host operations compute, in order: `X·W1`, `A·(X·W1)`, the bias `b1` spread over the rows, their sum,
  its positive part `H`; then `H·W2`, `A·(H·W2)`, the bias `b2` spread over the rows and their sum. Each product is a sum
  over its one contracted axis, so the fifth value is the project-first hidden layer and the last one the project-first
  output layer of it, entry by entry.
-/
import proofs.«165781_g13374528160099_cont_week2b_138_2_alg».proof.Proof.Gen.ReferenceIdeal.Read
import proofs.«165781_g13374528160099_cont_week2b_138_2_alg».proof.Proof.LayerMath
import Idealize.ShloMosaic.PureOps.Ideal.Laws

noncomputable section

namespace Cert.ReferenceIdeal.Layers

open Cert.ReferenceIdeal Cert.ReferenceIdeal.Read Cert.Gcn
open Idealize.ShloMosaic Idealize.ShloMosaic.ValueIdx
open scoped BigOperators

/-- A bias vector spread to one row and then to all 10000 rows reads its entry `q` at every (p, q). -/
theorem bias1_apply (x3 : (⟨S128, .f32⟩ : BufTy).Contents (Elt Ideal)) (i : S10000x128.Idx) :
    val_main_v3 (F := Ideal) x3 i = x3 (ix1 (i 1)) := by
  rw [val_main_v3_apply, val_main_v2_apply]
  exact congrArg x3 (funext fun a => match a with | ⟨0, _⟩ => rfl)
theorem bias2_apply (x5 : (⟨S128, .f32⟩ : BufTy).Contents (Elt Ideal)) (i : S10000x128.Idx) :
    val_main_v9 (F := Ideal) x5 i = x5 (ix1 (i 1)) := by
  rw [val_main_v9_apply, val_main_v8_apply]
  exact congrArg x5 (funext fun a => match a with | ⟨0, _⟩ => rfl)

/-! The operand indices of the four products, as plain row and column coordinates. -/
theorem outerL1 (i : S10000x128.Idx) (j : Fin 10000) : lidx_main_v1 i j = ix2 (i 0) j :=
  funext fun a => Fin.ext (by match a with | ⟨0, _⟩ => rfl | ⟨1, _⟩ => rfl)
theorem innerL1 (i : S10000x128.Idx) (j : Fin 10000) (k : Fin 128) : lidx_main_v0 (ridx_main_v1 i j) k = ix2 j k :=
  funext fun a => Fin.ext (by match a with | ⟨0, _⟩ => rfl | ⟨1, _⟩ => rfl)
theorem innerR1 (i : S10000x128.Idx) (j : Fin 10000) (k : Fin 128) : ridx_main_v0 (ridx_main_v1 i j) k = ix2 k (i 1) :=
  funext fun a => Fin.ext (by match a with | ⟨0, _⟩ => rfl | ⟨1, _⟩ => rfl)
theorem outerL2 (i : S10000x128.Idx) (j : Fin 10000) : lidx_main_v7 i j = ix2 (i 0) j :=
  funext fun a => Fin.ext (by match a with | ⟨0, _⟩ => rfl | ⟨1, _⟩ => rfl)
theorem innerL2 (i : S10000x128.Idx) (j : Fin 10000) (k : Fin 128) : lidx_main_v6 (ridx_main_v7 i j) k = ix2 j k :=
  funext fun a => Fin.ext (by match a with | ⟨0, _⟩ => rfl | ⟨1, _⟩ => rfl)
theorem innerR2 (i : S10000x128.Idx) (j : Fin 10000) (k : Fin 128) : ridx_main_v6 (ridx_main_v7 i j) k = ix2 k (i 1) :=
  funext fun a => Fin.ext (by match a with | ⟨0, _⟩ => rfl | ⟨1, _⟩ => rfl)

/-- The reference's fifth value is the project-first hidden layer. -/
theorem hidden_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = hiddenProj x0 x1 x2 (fun q => x3 (ix1 q)) := by
  funext i
  rw [val_main_v5_apply, val_main_v4_apply, val_main_call0_v0_apply, val_main_call0_cst_apply, bias1_apply, val_main_v1_apply]
  show max ((∑ j : Fin 10000, x0 (lidx_main_v1 i j) * val_main_v0 (F := Ideal) x1 x2 (ridx_main_v1 i j)) + x3 (ix1 (i 1)))
      (Ideal.ofBits .f32 0x00000000#32) = max (projAgg x0 x1 x2 (fun q => x3 (ix1 q)) (i 0) (i 1)) 0
  rw [Ideal.ofBits_zero_f32]
  unfold projAgg
  refine congrArg (max · 0) (congrArg (· + x3 (ix1 (i 1))) (Finset.sum_congr rfl fun j _ => ?_))
  rw [val_main_v0_apply, outerL1]
  exact congrArg (x0 (ix2 (i 0) j) * ·) (Finset.sum_congr rfl fun k _ =>
    congrArg₂ (· * ·) (congrArg x1 (innerL1 i j k)) (congrArg x2 (innerR1 i j k)))

/-- The reference's result is the project-first output layer of its fifth value. -/
theorem out_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5
      = outProj x0 (val_main_v5 (F := Ideal) x0 x1 x2 x3) x4 (fun q => x5 (ix1 q)) := by
  funext i
  rw [val_main_v10_apply, bias2_apply, val_main_v7_apply]
  show (∑ j : Fin 10000, x0 (lidx_main_v7 i j) * val_main_v6 (F := Ideal) x0 x1 x2 x3 x4 (ridx_main_v7 i j)) + x5 (ix1 (i 1))
      = projAgg x0 (val_main_v5 (F := Ideal) x0 x1 x2 x3) x4 (fun q => x5 (ix1 q)) (i 0) (i 1)
  unfold projAgg
  refine congrArg (· + x5 (ix1 (i 1))) (Finset.sum_congr rfl fun j _ => ?_)
  rw [val_main_v6_apply, outerL2]
  exact congrArg (x0 (ix2 (i 0) j) * ·) (Finset.sum_congr rfl fun k _ =>
    congrArg₂ (· * ·) (congrArg (val_main_v5 (F := Ideal) x0 x1 x2 x3) (innerL2 i j k)) (congrArg x4 (innerR2 i j k)))

/-- The reference's result: two project-first layers. -/
theorem result_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5
      = outProj x0 (hiddenProj x0 x1 x2 (fun q => x3 (ix1 q))) x4 (fun q => x5 (ix1 q)) := by
  rw [out_eq, hidden_eq]

end Cert.ReferenceIdeal.Layers

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.Finite.lean ====
/-
  The precondition, read back: every entry of every input is a coerced real.

  The printed test is the conjunction, by `and` on single bits, of six answers, one per input array, each the array's
  `all (|x| < +inf)`. A conjunction that is one has both conjuncts one, and an array whose test is one has only coerced
  reals as entries.
-/
import proofs.«165781_g13374528160099_cont_week2b_138_2_alg».proof.Pre_finite_inputs
import proofs.«165781_g13374528160099_cont_week2b_138_2_alg».proof.Proof.LibFinite
import Idealize.ShloMosaic.Lib.Affine

noncomputable section

namespace Cert.Pre_finite_inputs.Finite

open Cert.Pre_finite_inputs Idealize.ShloMosaic Idealize.ShloMosaic.ValueIdx

/-- If the test answers one, all six arrays hold coerced reals only. -/
theorem all_real [Facts] (a0 : FVec Ideal S10000x10000 .f32) (a1 : FVec Ideal S10000x128 .f32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ix0
  dsimp only [fn, fn_part1] at e
  obtain ⟨e01234, e5⟩ := IntOp.andi_eq_one.1 e
  obtain ⟨e0123, e4⟩ := IntOp.andi_eq_one.1 e01234
  obtain ⟨e012, e3⟩ := IntOp.andi_eq_one.1 e0123
  obtain ⟨e01, e2⟩ := IntOp.andi_eq_one.1 e012
  obtain ⟨e0, e1⟩ := IntOp.andi_eq_one.1 e01
  exact ⟨LibFinite.real_of_all a0 _ _ _ e0, LibFinite.real_of_all a1 _ _ _ e1, LibFinite.real_of_all a2 _ _ _ e2,
    LibFinite.real_of_all a3 _ _ _ e3, LibFinite.real_of_all a4 _ _ _ e4, LibFinite.real_of_all a5 _ _ _ e5⟩

end Cert.Pre_finite_inputs.Finite

end
-- ==== Proof.lean ====
/-
  A two-layer graph convolution on a dense 10000 × 10000 adjacency matrix, `out = A·(relu(A·(X·W1) + b1)·W2) + b2`.

  The kernel runs each layer as one pass over 25 blocks of 400 adjacency rows: a block is multiplied by the whole
  feature matrix first and the 400 × 128 product by the weights afterwards, `(A·X)·W`, where the reference multiplies
  the features by the weights first, `A·(X·W)`. Entry by entry the two are the same double sum bracketed two ways.
  On the extended reals that needs distributivity, so the precondition is used: every input entry is a coerced real,
  hence so is every entry of the hidden layer, and the law applies in both layers. The biases enter by one addition
  on each side and need no finiteness of their own in the second layer.

  The three frames are the generated ones (the reference's is its generated run with the result dropped); the ideal
  pass rewrote nothing, so the preservation claim is trivially true; the value claim puts the kernel's run, with its
  result array read as the aggregate-first network, beside the reference's run read as the project-first network.
-/
import proofs.«165781_g13374528160099_cont_week2b_138_2_alg».proof.Defs
import proofs.«165781_g13374528160099_cont_week2b_138_2_alg».proof.Proof.Gen.Kernel
import proofs.«165781_g13374528160099_cont_week2b_138_2_alg».proof.Proof.Gen.Kernel.Skeleton
import proofs.«165781_g13374528160099_cont_week2b_138_2_alg».proof.Proof.Gen.Kernel.Launch
import proofs.«165781_g13374528160099_cont_week2b_138_2_alg».proof.Proof.Gen.Kernel.Points
import proofs.«165781_g13374528160099_cont_week2b_138_2_alg».proof.Proof.Gen.Kernel.Frame
import proofs.«165781_g13374528160099_cont_week2b_138_2_alg».proof.Proof.Gen.KernelIdeal
import proofs.«165781_g13374528160099_cont_week2b_138_2_alg».proof.Proof.Gen.KernelIdeal.Skeleton
import proofs.«165781_g13374528160099_cont_week2b_138_2_alg».proof.Proof.Gen.KernelIdeal.Launch
import proofs.«165781_g13374528160099_cont_week2b_138_2_alg».proof.Proof.Gen.KernelIdeal.Points
import proofs.«165781_g13374528160099_cont_week2b_138_2_alg».proof.Proof.Gen.KernelIdeal.Frame
import proofs.«165781_g13374528160099_cont_week2b_138_2_alg».proof.Proof.Gen.ReferenceIdeal
import proofs.«165781_g13374528160099_cont_week2b_138_2_alg».proof.Proof.Gen.Pre_finite_inputs
import proofs.«165781_g13374528160099_cont_week2b_138_2_alg».proof.Proof.Gen.ReferenceIdeal.Run
import proofs.«165781_g13374528160099_cont_week2b_138_2_alg».proof.Proof.Gen.ReferenceIdeal.Read
import proofs.«165781_g13374528160099_cont_week2b_138_2_alg».proof.Proof.KernelRun
import proofs.«165781_g13374528160099_cont_week2b_138_2_alg».proof.Proof.KernelValue
import proofs.«165781_g13374528160099_cont_week2b_138_2_alg».proof.Proof.RefLayers
import proofs.«165781_g13374528160099_cont_week2b_138_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six inputs, all finite, the kernel's result array and the reference's hold the
    same extended reals: the aggregate-first network of the inputs is their project-first network. -/
theorem algebraic : Cert.algebraic_KernelIdeal_ReferenceIdeal := by
  intro m ρ m' ρ' hpre hagree
  refine ⟨fun c => Cert.KernelIdeal.ResultValue.network m c, ?_, ?_⟩
  · exact (θ_run Cert.KernelIdeal.defs _ _).mono
      (fun _ h c => ⟨(h c).1.trans (Cert.KernelIdeal.ResultValue.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hA, hX, hW1, hb1, hW2, -⟩ := Cert.Pre_finite_inputs.Finite.all_real _ _ _ _ _ _ (hpre c)
    obtain ⟨g0, g1, g2, g3, g4, g5⟩ := hagree c
    rw [Cert.ReferenceIdeal.Read.val_main_v10_eq, Cert.ReferenceIdeal.Layers.result_eq, g0, g1, g2, g3, g4, g5]
    exact (Cert.Gcn.two_layers hA hX hW1 (fun q => hb1 (ix1 q)) hW2 _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
